-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x12288 : Shape := ⟨2, ![12288, 12288]⟩
abbrev S12288x128 : Shape := ⟨2, ![12288, 128]⟩
abbrev S12288x1 : Shape := ⟨2, ![12288, 1]⟩
abbrev S_ : Shape := ⟨0, ![]⟩

class Facts : Prop where
  bcast_S_S12288x12288 : S_.BroadcastsInDim S12288x12288 (![] : Fin 0 → Fin S12288x12288.rank)
  reducesTo_S12288x12288_S_d0_1 : S12288x12288.ReducesTo [0, 1] S_
  h_S_ : 0 < S_.numel
  bcast_S_S12288x128 : S_.BroadcastsInDim S12288x128 (![] : Fin 0 → Fin S12288x128.rank)
  reducesTo_S12288x128_S_d0_1 : S12288x128.ReducesTo [0, 1] S_
  bcast_S_S12288x1 : S_.BroadcastsInDim S12288x1 (![] : Fin 0 → Fin S12288x1.rank)
  reducesTo_S12288x1_S_d0_1 : S12288x1.ReducesTo [0, 1] S_

variable [Facts]

def fn_part1 {F : FTy → Type} [FloatOps F] (main_arg0 : FVec F S12288x12288 .f32) (main_arg4 : FVec F S12288x1 .f32) (main_v13 : IVec S_ 1) (main_v16 : IVec S12288x1 1) : IVec S_ 1 :=
  let main_c_5 : IVec S_ 1 := constantI S_ 1 1#1
  let main_v17 : IVec S_ 1 := (fun x v => Host.reduce IntOp.andi x v reducesTo_S12288x1_S_d0_1 h_S_) main_v16 main_c_5
  let main_v18 : IVec S_ 1 := andi main_v13 main_v17
  let main_v19 : FVec F S12288x1 .f32 := Host.absf main_arg4
  let main_cst_6 : FVec F S_ .f32 := constant S_ .f32 0x7F800000#32
  let main_v20 : FVec F S12288x1 .f32 := broadcastInDim S12288x1 ![] bcast_S_S12288x1 main_cst_6
  let main_v21 : IVec S12288x1 1 := cmpf .olt main_v19 main_v20
  let main_c_7 : IVec S_ 1 := constantI S_ 1 1#1
  let main_v22 : IVec S_ 1 := (fun x v => Host.reduce IntOp.andi x v reducesTo_S12288x1_S_d0_1 h_S_) main_v21 main_c_7
  let main_v23 : IVec S_ 1 := andi main_v18 main_v22
  let main_cst_8 : FVec F S_ .f32 := constant S_ .f32 0x00000000#32
  let main_v24 : FVec F S12288x12288 .f32 := broadcastInDim S12288x12288 ![] bcast_S_S12288x12288 main_cst_8
  let main_v25 : IVec S12288x12288 1 := cmpf .oge main_arg0 main_v24
  let main_c_9 : IVec S_ 1 := constantI S_ 1 1#1
  let main_v26 : IVec S_ 1 := (fun x v => Host.reduce IntOp.andi x v reducesTo_S12288x12288_S_d0_1 h_S_) main_v25 main_c_9
  let main_v27 : IVec S_ 1 := andi main_v23 main_v26
  main_v27

def fn {F : FTy → Type} [FloatOps F] (main_arg0 : FVec F S12288x12288 .f32) (main_arg1 : FVec F S12288x128 .f32) (main_arg2 : FVec F S12288x128 .f32) (main_arg3 : FVec F S12288x1 .f32) (main_arg4 : FVec F S12288x1 .f32) : IVec S_ 1 :=
  let main_v0 : FVec F S12288x12288 .f32 := Host.absf main_arg0
  let main_cst : FVec F S_ .f32 := constant S_ .f32 0x7F800000#32
  let main_v1 : FVec F S12288x12288 .f32 := broadcastInDim S12288x12288 ![] bcast_S_S12288x12288 main_cst
  let main_v2 : IVec S12288x12288 1 := cmpf .olt main_v0 main_v1
  let main_c : IVec S_ 1 := constantI S_ 1 1#1
  let main_v3 : IVec S_ 1 := (fun x v => Host.reduce IntOp.andi x v reducesTo_S12288x12288_S_d0_1 h_S_) main_v2 main_c
  let main_v4 : FVec F S12288x128 .f32 := Host.absf main_arg1
  let main_cst_0 : FVec F S_ .f32 := constant S_ .f32 0x7F800000#32
  let main_v5 : FVec F S12288x128 .f32 := broadcastInDim S12288x128 ![] bcast_S_S12288x128 main_cst_0
  let main_v6 : IVec S12288x128 1 := cmpf .olt main_v4 main_v5
  let main_c_1 : IVec S_ 1 := constantI S_ 1 1#1
  let main_v7 : IVec S_ 1 := (fun x v => Host.reduce IntOp.andi x v reducesTo_S12288x128_S_d0_1 h_S_) main_v6 main_c_1
  let main_v8 : IVec S_ 1 := andi main_v3 main_v7
  let main_v9 : FVec F S12288x128 .f32 := Host.absf main_arg2
  let main_cst_2 : FVec F S_ .f32 := constant S_ .f32 0x7F800000#32
  let main_v10 : FVec F S12288x128 .f32 := broadcastInDim S12288x128 ![] bcast_S_S12288x128 main_cst_2
  let main_v11 : IVec S12288x128 1 := cmpf .olt main_v9 main_v10
  let main_c_3 : IVec S_ 1 := constantI S_ 1 1#1
  let main_v12 : IVec S_ 1 := (fun x v => Host.reduce IntOp.andi x v reducesTo_S12288x128_S_d0_1 h_S_) main_v11 main_c_3
  let main_v13 : IVec S_ 1 := andi main_v8 main_v12
  let main_v14 : FVec F S12288x1 .f32 := Host.absf main_arg3
  let main_cst_4 : FVec F S_ .f32 := constant S_ .f32 0x7F800000#32
  let main_v15 : FVec F S12288x1 .f32 := broadcastInDim S12288x1 ![] bcast_S_S12288x1 main_cst_4
  let main_v16 : IVec S12288x1 1 := cmpf .olt main_v14 main_v15
  fn_part1 (F := F) main_arg0 main_arg4 main_v13 main_v16
-- ==== Kernel.lean ====
abbrev S12288x12288 : Shape := ⟨2, ![12288, 12288]⟩
abbrev S12288x128 : Shape := ⟨2, ![12288, 128]⟩
abbrev S12288x1 : Shape := ⟨2, ![12288, 1]⟩
abbrev S1x12288 : Shape := ⟨2, ![1, 12288]⟩
abbrev S12x8x128 : Shape := ⟨3, ![12, 8, 128]⟩
abbrev S1024x1024 : Shape := ⟨2, ![1024, 1024]⟩
abbrev S1024x128 : Shape := ⟨2, ![1024, 128]⟩
abbrev S1x1024 : Shape := ⟨2, ![1, 1024]⟩
abbrev S1024x1 : Shape := ⟨2, ![1024, 1]⟩
abbrev S1x8x128 : Shape := ⟨3, ![1, 8, 128]⟩
abbrev S128x1024 : Shape := ⟨2, ![128, 1024]⟩
abbrev S1024 : Shape := ⟨1, ![1024]⟩
abbrev S1 : Shape := ⟨1, ![1]⟩
abbrev S1x1 : Shape := ⟨2, ![1, 1]⟩
abbrev S8x128 : Shape := ⟨2, ![8, 128]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S12288x12288, .f32⟩
  | .hbm, ⟨1, _⟩ => ⟨S12288x128, .f32⟩
  | .hbm, ⟨2, _⟩ => ⟨S12288x128, .f32⟩
  | .hbm, ⟨3, _⟩ => ⟨S12288x1, .f32⟩
  | .hbm, ⟨4, _⟩ => ⟨S12288x1, .f32⟩
  | .hbm, ⟨5, _⟩ => ⟨S12288x128, .bf16⟩
  | .hbm, ⟨6, _⟩ => ⟨S12288x128, .bf16⟩
  | .hbm, ⟨7, _⟩ => ⟨S1x12288, .f32⟩
  | .hbm, ⟨8, _⟩ => ⟨S12x8x128, .f32⟩
  | .hbm, ⟨9, _⟩ => ⟨S_, .f32⟩
  | .hbm, ⟨10, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x128, .bf16⟩
  | .local _ .vmem, ⟨4, _⟩ => ⟨S12288x128, .bf16⟩
  | .local _ .vmem, ⟨5, _⟩ => ⟨S1x1024, .f32⟩
  | .local _ .vmem, ⟨6, _⟩ => ⟨S1x1024, .f32⟩
  | .local _ .vmem, ⟨7, _⟩ => ⟨S1024x1, .f32⟩
  | .local _ .vmem, ⟨8, _⟩ => ⟨S1024x1, .f32⟩
  | .local _ .vmem, ⟨9, _⟩ => ⟨S1x8x128, .f32⟩
  | .local _ .vmem, ⟨10, _⟩ => ⟨S1x8x128, .f32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 12], ![false, false]⟩

def k0_mult1 (i : grid0.Coords) : BitVec 32 :=
  let arg1 : BitVec 32 := BitVec.ofNat 32 (i 1).val
  let c1024_i32 : BitVec 32 := 1024#32
  let v16 : BitVec 32 := Scalar.muli arg1 c1024_i32
  v16
def k0_off1 (i : grid0.Coords) : Fin 2 → Nat :=
  let arg1 : BitVec 32 := BitVec.ofNat 32 (i 1).val
  let c1024_i32 : BitVec 32 := 1024#32
  let v16 : BitVec 32 := Scalar.muli arg1 c1024_i32
  let v17 : BitVec 32 := v16
  let v18 : Index := Scalar.indexCast v17
  let c0_6 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S12288x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S12288x1_S1x12288 : S12288x1.ShapeCasts S1x12288
  inb_S1x8x128_S1x8x128_0_0_0 : ∀ a, (![0, 0, 0] : Fin 3 → Nat) a + S1x8x128.size a ≤ S1x8x128.size a
  h_S1x8x128 : 0 < S1x8x128.numel
  inb_S1024x1024_S1024x1024_0_0 : ∀ a, (![0, 0] : Fin 2 → Nat) a + S1024x1024.size a ≤ S1024x1024.size a
  h_S1024x1024 : 0 < S1024x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1_S1024x1_0_0 : ∀ a, (![0, 0] : Fin 2 → Nat) a + S1024x1.size a ≤ S1024x1.size a
  h_S1024x1 : 0 < S1024x1.numel
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  shapeCasts_S1x8x128_S8x128 : S1x8x128.ShapeCasts S8x128
  shapeCasts_S8x128_S1x8x128 : S8x128.ShapeCasts S1x8x128
  reducesTo_S12x8x128_S_d0_1_2 : S12x8x128.ReducesTo [0, 1, 2] S_
  h_S_ : 0 < S_.numel
  dot_S1024x128_S128x1024_S1024x1024_1_0_0_1_n_n_wf : DotDims.WF S1024x128 S128x1024 S1024x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1024x128.size a ≤ S12288x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S12288x12288.size a
  hwx0_0 : ∀ i : grid0.Coords, EltTy.bits .f32 = 32 ∨ (Rect.block (s := S12288x12288) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S12288x128.size a
  hwx0_1 : ∀ i : grid0.Coords, EltTy.bits .bf16 = 32 ∨ (Rect.block (s := S12288x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12288x128.size a ≤ S12288x128.size a
  hwx0_2 : ∀ i : grid0.Coords, EltTy.bits .bf16 = 32 ∨ (Rect.block (s := S12288x128) S12288x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x12288.size a
  hwx0_3 : ∀ i : grid0.Coords, EltTy.bits .f32 = 32 ∨ (Rect.block (s := S1x12288) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S12288x1.size a
  hwx0_4 : ∀ i : grid0.Coords, EltTy.bits .f32 = 32 ∨ (Rect.block (s := S12288x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S12x8x128.size a
  hwx0_5 : ∀ i : grid0.Coords, EltTy.bits .f32 = 32 ∨ (Rect.block (s := S12x8x128) S1x8x128.size (cc0_transform_5 i) (hinb0_5 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S12288x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S12288x12288 : Shape := ⟨2, ![12288, 12288]⟩
abbrev S12288x128 : Shape := ⟨2, ![12288, 128]⟩
abbrev S12288x1 : Shape := ⟨2, ![12288, 1]⟩
abbrev S128x12288 : Shape := ⟨2, ![128, 12288]⟩
abbrev S1x12288 : Shape := ⟨2, ![1, 12288]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S12288x12288, .f32⟩
  | .hbm, ⟨1, _⟩ => ⟨S12288x128, .f32⟩
  | .hbm, ⟨2, _⟩ => ⟨S12288x128, .f32⟩
  | .hbm, ⟨3, _⟩ => ⟨S12288x1, .f32⟩
  | .hbm, ⟨4, _⟩ => ⟨S12288x1, .f32⟩
  | .hbm, ⟨5, _⟩ => ⟨S128x12288, .f32⟩
  | .hbm, ⟨6, _⟩ => ⟨S12288x12288, .f32⟩
  | .hbm, ⟨7, _⟩ => ⟨S1x12288, .f32⟩
  | .hbm, ⟨8, _⟩ => ⟨S12288x12288, .f32⟩
  | .hbm, ⟨9, _⟩ => ⟨S12288x12288, .f32⟩
  | .hbm, ⟨10, _⟩ => ⟨S12288x12288, .f32⟩
  | .hbm, ⟨11, _⟩ => ⟨S12288x12288, .f32⟩
  | .hbm, ⟨12, _⟩ => ⟨S12288x12288, .f32⟩
  | .hbm, ⟨13, _⟩ => ⟨S12288x12288, .f32⟩
  | .hbm, ⟨14, _⟩ => ⟨S_, .f32⟩
  | .hbm, ⟨15, _⟩ => ⟨S12288x12288, .f32⟩
  | .hbm, ⟨16, _⟩ => ⟨S12288x12288, .f32⟩
  | .hbm, ⟨17, _⟩ => ⟨S_, .f32⟩
  | .hbm, ⟨18, _⟩ => ⟨S12288x12288, .f32⟩
  | .hbm, ⟨19, _⟩ => ⟨S12288x12288, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S12288x12288, .f32⟩
  | .hbm, ⟨24, _⟩ => ⟨S12288x12288, .f32⟩
  | .hbm, ⟨25, _⟩ => ⟨S_, .f32⟩
  | .hbm, ⟨26, _⟩ => ⟨S12288x12288, .f32⟩
  | .hbm, ⟨27, _⟩ => ⟨S12288x12288, .f32⟩
  | .hbm, ⟨28, _⟩ => ⟨S12288x12288, .f32⟩
  | .hbm, ⟨29, _⟩ => ⟨S12288x12288, .f32⟩
  | .hbm, ⟨30, _⟩ => ⟨S_, .f32⟩
  | .hbm, ⟨31, _⟩ => ⟨S_, .f32⟩
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  transposes_S12288x128_S128x12288_1_0 : S12288x128.Transposes [1, 0] S128x12288
  transposes_S12288x1_S1x12288_1_0 : S12288x1.Transposes [1, 0] S1x12288
  bcast_S1x12288_S12288x12288_0_1 : S1x12288.BroadcastsInDim S12288x12288 (![0, 1] : Fin 2 → Fin S12288x12288.rank)
  bcast_S12288x1_S12288x12288_0_1 : S12288x1.BroadcastsInDim S12288x12288 (![0, 1] : Fin 2 → Fin S12288x12288.rank)
  bcast_S_S12288x12288 : S_.BroadcastsInDim S12288x12288 (![] : Fin 0 → Fin S12288x12288.rank)
  reducesTo_S12288x12288_S_d0_1 : S12288x12288.ReducesTo [0, 1] S_
  h_S_ : 0 < S_.numel
  dot_S12288x128_S128x12288_S12288x12288_1_0_0_1_n_n_wf : DotDims.WF S12288x128 S128x12288 S12288x12288 [1] [0] [0] [1] [] []

variable [Facts₀]

def dot_S12288x128_S128x12288_S12288x12288_1_0_0_1_n_n : DotDims S12288x128 S128x12288 S12288x12288 where
  lhsContracting := [1]
  rhsContracting := [0]
  lhsNonContracting := [0]
  rhsNonContracting := [1]
  lhsBatch := []
  rhsBatch := []
  wf := dot_S12288x128_S128x12288_S12288x12288_1_0_0_1_n_n_wf

class Facts : Prop extends Facts₀ where

variable [Facts]
-- ==== Proof.KernelCases.lean ====
/-
  What one grid point leaves in the output block, as a value.

  At grid point (i, j) the body reads the matrix block, the context rows of row block i, rows
  1024 j … 1024 j + 1023 of the resident target table, the target-bias lanes of column block j and
  the context-bias rows of row block i, forms the block's total `s` (broadcast over 8 × 128), and
  adds `s · 2⁻¹⁰` to the output block. When j = 0 it first stores the zero block and reads that back,
  so the point leaves `0 + s · 2⁻¹⁰`; otherwise it leaves `previous + s · 2⁻¹⁰`. Both are the same
  expression `step` of the five input blocks and of what the output block held.
-/
import proofs.«411057_j33251636805826_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F] [Named F]

theorem hz2 : (![0, 0] : Fin 2 → Nat) = fun _ => 0 := funext fun a => by fin_cases a <;> rfl

theorem hz3 : (![0, 0, 0] : Fin 3 → Nat) = fun _ => 0 := funext fun a => by fin_cases a <;> rfl

/-- Rows `1024 j … 1024 j + 1023` of the resident target table, as the body loads them at a point
    whose column coordinate is `j`. -/
abbrev tableRows (i : grid0.Coords) (x2 : Vec F S12288x128 .bf16) : Vec F S1024x128 .bf16 :=
  View.ld x2 (Rect.unit (s := S12288x128) (k0_off1 i) S1024x128.size (k0_off1_inb i))

/-- One point's update of the output block `xo`: `xo + s · 2⁻¹⁰`, `s` the block's total. -/
abbrev step (i : grid0.Coords) (x0 : Vec F S1024x1024 .f32) (x1 : Vec F S1024x128 .bf16) (x2 : Vec F S12288x128 .bf16) (x3 : Vec F S1x1024 .f32) (x4 : Vec F S1024x1 .f32) (xo : Vec F S1x8x128 .f32) : Vec F S1x8x128 .f32 :=
  k0_pay1 (k0_pay3 x0 x1 (tableRows i x2) x3 x4) xo

/-- A point with `j ≠ 0` leaves `step` of what the output block held. -/
theorem out_B (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S12288x128 .bf16) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x8x128 .f32) (harg7 : arg7.IsWhole) (hc0 : ¬cond0_0 i)
    (x0 : Vec F S1024x1024 .f32) (x1 : Vec F S1024x128 .bf16) (x2 : Vec F S12288x128 .bf16) (x3 : Vec F S1x1024 .f32) (x4 : Vec F S1024x1 .f32) (xo5 : Vec F S1x8x128 .f32) :
    out0_B_5 c i arg2 harg2 arg3 harg3 arg4 harg4 arg5 harg5 arg6 harg6 arg7 harg7 hc0 x0 x1 x2 x3 x4 xo5 = step i x0 x1 x2 x3 x4 xo5 := by
  unfold out0_B_5
  rw [View.read_writes_eq_canon _ _ _ (cover0_B_5 c i arg2 harg2 arg3 harg3 arg4 harg4 arg5 harg5 arg6 harg6 arg7 harg7 hc0 x0 x1 x2 x3 x4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1024x1024) hz2, View.ld_unit_zero (S := S1024x128) hz2, View.ld_unit_zero (S := S1x1024) hz2, View.ld_unit_zero (S := S1024x1) hz2, View.ld_unit_zero (S := S1x8x128) hz3]
  rfl

/-- A point with `j = 0` leaves `step` of the zero block it stored first. -/
theorem out_A (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S12288x128 .bf16) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x8x128 .f32) (harg7 : arg7.IsWhole) (hc0 : cond0_0 i)
    (x0 : Vec F S1024x1024 .f32) (x1 : Vec F S1024x128 .bf16) (x2 : Vec F S12288x128 .bf16) (x3 : Vec F S1x1024 .f32) (x4 : Vec F S1024x1 .f32) :
    out0_A_5 c i arg2 harg2 arg3 harg3 arg4 harg4 arg5 harg5 arg6 harg6 arg7 harg7 hc0 x0 x1 x2 x3 x4 = step i x0 x1 x2 x3 x4 (k0_pay2 (F := F)) := by
  unfold out0_A_5
  rw [View.read_writes_eq_canon _ _ _ (cover0_A_5 c i arg2 harg2 arg3 harg3 arg4 harg4 arg5 harg5 arg6 harg6 arg7 harg7 hc0 x0 x1 x2 x3 x4)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, harg7.read_unread,
    View.ld_unit_zero (S := S1024x1024) hz2, View.ld_unit_zero (S := S1024x128) hz2, View.ld_unit_zero (S := S1x1024) hz2, View.ld_unit_zero (S := S1024x1) hz2, View.ld_unit_zero (S := S1x8x128) hz3]
  rfl

end Cert.KernelIdeal.Cases

end
-- ==== Proof.KernelBlock.lean ====
/-
  One grid point's block total, at the extended reals, read at an index.

  The body's pure part (`k0_pay3`) takes the matrix block `x0`, the context rows `x1`, the target
  rows `x2`, the target-bias lanes `x3` and the context-bias rows `x4` and returns, at every index of
  an 8 × 128 tile, the one number

      ∑ r, ∑ c, w(x0[r,c]) · d[r,c] · d[r,c],
      d[r,c] = ((∑ k, x1[r,k] · x2[c,k]) + x3[0,c]) + x4[r,0] − log1p x0[r,c],

  `w` the clip of `t · √t`, `t = √(x0[r,c] · c₁₀₀)`, with `c₁₀₀` the kernel's named constant.
  The matrix product into a zero accumulator is the plain sum over `k`; the lane sum followed by
  the sublane sum is the double sum; the casts and broadcasts only move indices.
-/
import proofs.«411057_j33251636805826_3_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Block

open Cert.KernelIdeal Cert.KernelIdeal.Gen

/-- The lane sum, cast to a column, summed over sublanes, cast twice and broadcast over 8 × 128:
    at every index the double sum of the block. -/
theorem total_apply (y : FVec Ideal S1024x1024 .f32)
    (h1 : S1024x1024.Reduces [1] S1024) (hc1 : S1024.ShapeCasts S1024x1) (h0 : S1024x1.Reduces [0] S1)
    (hc2 : S1.ShapeCasts S1x1) (hc3 : S1x1.ShapeCasts S1x1) (hb : S1x1.Broadcasts S8x128)
    (ha1 ha0 : (0x00000000#32 : BitVec 32) = 0x00000000#32) (j : S8x128.Idx) :
    broadcastTo S8x128 (shapeCast S1x1 (shapeCast S1x1
        (multiReduction .add [0] S1 (shapeCast S1024x1
          (multiReduction .add [1] S1024 y 0x00000000#32 h1 (.inl rfl) ha1) hc1) 0x00000000#32 h0 (.inl rfl) ha0) hc2) hc3) hb j
      = ∑ r : Fin 1024, ∑ c : Fin 1024, y (ix2 r c) := by
  refine (broadcastTo_apply _ hb j (ix2 (0 : Fin 1) (0 : Fin 1)) (fun a => by
    match a with
    | ⟨0, _⟩ => rfl
    | ⟨1, _⟩ => rfl)).trans ?_
  rw [shapeCast_self]
  refine (shapeCast_apply _ hc2 (ix2 (0 : Fin 1) (0 : Fin 1)) (ix1 (0 : Fin 1)) (by
    rw [Shape.rowMajor_val_one, Shape.rowMajor_val_two]; rfl)).trans ?_
  refine (Ideal.multiReduction_add_single _ 0x00000000#32 h0 (.inl rfl) ha0 (ix1 (0 : Fin 1))).trans ?_
  refine Finset.sum_congr rfl fun r _ => ?_
  refine (shapeCast_apply _ hc1 (h0.lift (ix1 (0 : Fin 1)) r) (ix1 r) (by
    rw [Shape.rowMajor_val_one, Shape.rowMajor_val_two]
    show r.val = r.val * 1 + 0
    omega)).trans ?_
  refine (Ideal.multiReduction_add_single y 0x00000000#32 h1 (.inl rfl) ha1 (ix1 r)).trans ?_
  refine Finset.sum_congr rfl fun c _ => ?_
  refine congrArg y (funext fun a => Fin.ext ?_)
  match a with
  | ⟨0, _⟩ => rfl
  | ⟨1, _⟩ => rfl

/-! ## The matrix product at an index -/

theorem lhs_dot_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_dot_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_dot_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_dot_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- Context rows times the transposed target rows, into a zero accumulator: at (r, c) the inner
    product of context row `r` and target row `c`. -/
theorem matmul_blk (x1 x2 : FVec Ideal S1024x128 .bf16) (hs : S1024x128.ShapeCasts S1024x128)
    (ht : S1024x128.Transposes [1, 0] S128x1024) (r c : Fin 1024) :
    matmul dot_S1024x128_S128x1024_S1024x1024_1_0_0_1_n_n none (shapeCast S1024x128 x1 hs) (transpose S128x1024 [1, 0] (shapeCast S1024x128 x2 hs) ht)
        (constant S1024x1024 .f32 0x00000000#32) (ix2 r c)
      = ∑ k : Fin 128, x1 (ix2 r k) * x2 (ix2 c k) := by
  rw [shapeCast_self, shapeCast_self]
  simp only [matmul]
  refine (Ideal.matmul_constant_zero_apply dot_S1024x128_S128x1024_S1024x1024_1_0_0_1_n_n none x1 _ (ix2 r c)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r c) ((contrEquiv1 dot_S1024x128_S128x1024_S1024x1024_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S1024x128_S128x1024_S1024x1024_1_0_0_1_n_n.rhsIdx (ix2 r c) ((contrEquiv1 dot_S1024x128_S128x1024_S1024x1024_1_0_0_1_n_n 128 rfl rfl).symm k) = ix2 k c := funext fun a => Fin.ext (by
    match a with
    | ⟨0, _⟩ => exact (rhs_dot_0 _ _).trans hk
    | ⟨1, _⟩ => exact rhs_dot_1 _ _)
  rw [el, er]
  exact congrArg (x1 (ix2 r k) * ·) (transpose_apply [1, 0] x2 ht (ix2 k c) (ix2 c k) (fun b => match b with
    | ⟨0, _⟩ => rfl
    | ⟨1, _⟩ => rfl))

/-! ## The two bias broadcasts -/

/-- The target-bias lanes, broadcast over sublanes: at (r, c) lane `c`. -/
theorem bias_row_apply (x3 : FVec Ideal S1x1024 .f32) (hs : S1x1024.ShapeCasts S1x1024) (hb : S1x1024.Broadcasts S1024x1024)
    (r c : Fin 1024) :
    broadcastTo S1024x1024 (shapeCast S1x1024 x3 hs) hb (ix2 r c) = x3 (ix2 (0 : Fin 1) c) := by
  rw [shapeCast_self]
  exact broadcastTo_apply x3 hb (ix2 r c) (ix2 (0 : Fin 1) c) (fun a => by
    match a with
    | ⟨0, _⟩ => rfl
    | ⟨1, _⟩ => rfl)

/-- The context-bias rows, broadcast over lanes: at (r, c) row `r`. -/
theorem bias_col_apply (x4 : FVec Ideal S1024x1 .f32) (hb : S1024x1.Broadcasts S1024x1024) (r c : Fin 1024) :
    broadcastTo S1024x1024 x4 hb (ix2 r c) = x4 (ix2 r (0 : Fin 1)) :=
  broadcastTo_apply x4 hb (ix2 r c) (ix2 r (0 : Fin 1)) (fun a => by
    match a with
    | ⟨0, _⟩ => rfl
    | ⟨1, _⟩ => rfl)

/-! ## The block total -/

/-- The kernel's named reciprocal denotes the rational 1/100. -/
theorem inv_100 : Named.named (F := Ideal) κ "inv_100" (φ := .f32) 0x3C23D70A#32 = ((1 / 100 : ℝ) : EReal) :=
  IdealRules.named_const.ideal_named_scalar _ _ _ _ rfl

variable (x0 : FVec Ideal S1024x1024 .f32) (x1 x2 : FVec Ideal S1024x128 .bf16) (x3 : FVec Ideal S1x1024 .f32)
  (x4 : FVec Ideal S1024x1 .f32)

/-- The residual at (r, c) of the block. -/
def blockDiff (r c : Fin 1024) : EReal :=
  ((∑ k : Fin 128, x1 (ix2 r k) * x2 (ix2 c k)) + x3 (ix2 (0 : Fin 1) c)) + x4 (ix2 r (0 : Fin 1))
    - Ideal.log1p (x0 (ix2 r c))

/-- The weight of a matrix entry as the kernel forms it: the clip of `t · √t`, `t = √(x · (1/100))`. -/
def kweight (x : EReal) : EReal :=
  min (Ideal.ofBits .f32 0x3F800000#32) (max (Ideal.ofBits .f32 0x00000000#32)
    (Ideal.sqrt (x * ((1 / 100 : ℝ) : EReal)) * Ideal.sqrt (Ideal.sqrt (x * ((1 / 100 : ℝ) : EReal)))))

/-- One entry's contribution, as the kernel forms it. -/
def blockEntry (r c : Fin 1024) : EReal :=
  kweight (x0 (ix2 r c)) * blockDiff x0 x1 x2 x3 x4 r c * blockDiff x0 x1 x2 x3 x4 r c

/-- The body's pure part, at any index of the 8 × 128 tile, is the block's total. -/
theorem blockTotal_apply (j : S8x128.Idx) :
    k0_pay3 (F := Ideal) x0 x1 x2 x3 x4 j = ∑ r : Fin 1024, ∑ c : Fin 1024, blockEntry x0 x1 x2 x3 x4 r c := by
  unfold k0_pay3
  refine (total_apply _ _ _ _ _ _ _ rfl rfl j).trans ?_
  refine Finset.sum_congr rfl fun r _ => Finset.sum_congr rfl fun c _ => ?_
  unfold blockEntry blockDiff kweight
  rw [← matmul_blk x1 x2 shapeCasts_S1024x128_S1024x128 transposes_S1024x128_p1_0_S128x1024 r c,
    ← bias_row_apply x3 shapeCasts_S1x1024_S1x1024 broadcasts_S1x1024_S1024x1024 r c,
    ← bias_col_apply x4 broadcasts_S1024x1_S1024x1024 r c, ← inv_100]
  rfl

end Cert.KernelIdeal.Block

end
-- ==== Proof.Accumulate.lean ====
/-
  The accumulation along the column axis of the grid, as a recursion on the point and in closed form.

  The grid's 144 points run row block by row block: point `n` is (row block `n / 12`, column block
  `n % 12`). The output block is reset at the first column block of each row block and receives the
  point's contribution `s n` at every point. So what it holds after point `n` obeys

      acc 0 = 0 + s 0,   acc (n+1) = 0 + s (n+1)  if 12 ∣ n+1,   acc (n+1) = acc n + s (n+1)  otherwise,

  and after point `12 q + j` (`j < 12`) it holds `s (12 q) + … + s (12 q + j)`.
-/
import Mathlib.Data.EReal.Operations
import Mathlib.Algebra.BigOperators.Intervals

noncomputable section

namespace Cert.Glove

/-- What the output block holds after point `n`, given each point's contribution. -/
def accN (s : ℕ → EReal) : ℕ → EReal
  | 0 => 0 + s 0
  | n + 1 => if (n + 1) % 12 = 0 then 0 + s (n + 1) else accN s n + s (n + 1)

theorem accN_zero (s : ℕ → EReal) : accN s 0 = 0 + s 0 := rfl

theorem accN_succ (s : ℕ → EReal) (n : ℕ) :
    accN s (n + 1) = if (n + 1) % 12 = 0 then 0 + s (n + 1) else accN s n + s (n + 1) := rfl

/-- After point `12 q + j` the block holds the contributions of points `12 q … 12 q + j`. -/
theorem accN_eq (s : ℕ → EReal) (q : ℕ) : ∀ j : ℕ, j < 12 →
    accN s (12 * q + j) = ∑ k ∈ Finset.range (j + 1), s (12 * q + k)
  | 0, _ => by
    rw [Finset.sum_range_one, add_zero]
    cases q with
    | zero => rw [Nat.mul_zero, accN_zero, zero_add]
    | succ q =>
      rw [show 12 * (q + 1) = (12 * q + 11) + 1 by ring, accN_succ, if_pos (by omega), zero_add]
  | j + 1, hj => by
    rw [show 12 * q + (j + 1) = (12 * q + j) + 1 by ring, accN_succ, if_neg (by omega),
      accN_eq s q j (by omega), Finset.sum_range_succ (fun k => s (12 * q + k)) (j + 1)]
    rfl

end Cert.Glove

end
-- ==== Proof.Summation.lean ====
/-
  The summation law that joins the two sides, over the extended reals.

  The kernel tiles the 12288 × 12288 matrix into 12 × 12 blocks of 1024 × 1024. For row block `i`
  it adds, over the column blocks `j`, the block's total times `1/1024`, into every one of the
  `8 · 128 = 1024` entries of output block `i`; the host then totals the 12 × 8 × 128 output. The
  reference totals the matrix once. Both are one sum:

    ∑ i, ∑ a, ∑ b, ∑ j, (∑ r, ∑ c, f (1024 i + r) (1024 j + c)) · (1/1024) = ∑ R, ∑ C, f R C.

  No finiteness is needed: `+` on the extended reals is a commutative monoid, so sums re-arrange
  freely; `·` is commutative and associative, and `n • x = n · x` there, so the `1024` copies of
  `x · (1/1024)` total `x · (1024 · (1/1024)) = x` whatever `x` is, infinities included.
-/
import Mathlib.Data.EReal.Operations
import Mathlib.Data.EReal.Inv
import Mathlib.Algebra.BigOperators.Fin
import Mathlib.Algebra.BigOperators.Group.Finset.Sigma
import Mathlib.Logic.Equiv.Fin.Basic

noncomputable section

namespace Cert.Glove

open Finset

/-- Global row (or column) `1024 · i + r` of block `i`, offset `r`. -/
def blockIx (i : Fin 12) (r : Fin 1024) : Fin 12288 :=
  ⟨1024 * i.val + r.val, by have := i.isLt; have := r.isLt; omega⟩

theorem blockIx_val (i : Fin 12) (r : Fin 1024) : (blockIx i r).val = 1024 * i.val + r.val := rfl

/-- The `8 · 128` copies of `x · (1/1024)` total `x`, for every extended real `x`. -/
theorem sum_copies (x : EReal) : ∑ _a : Fin 8, ∑ _b : Fin 128, x * ((1 / 1024 : ℝ) : EReal) = x := by
  simp only [sum_const, card_univ, Fintype.card_fin, EReal.nsmul_eq_mul]
  have h : ((8 : ℕ) : EReal) * (((128 : ℕ) : EReal) * ((1 / 1024 : ℝ) : EReal)) = 1 := by
    rw [← EReal.coe_natCast, ← EReal.coe_natCast, ← EReal.coe_mul, ← EReal.coe_mul]
    norm_num
  calc ((8 : ℕ) : EReal) * (((128 : ℕ) : EReal) * (x * ((1 / 1024 : ℝ) : EReal)))
      = x * (((8 : ℕ) : EReal) * (((128 : ℕ) : EReal) * ((1 / 1024 : ℝ) : EReal))) := by
        rw [mul_left_comm ((128 : ℕ) : EReal) x, mul_left_comm ((8 : ℕ) : EReal) x]
    _ = x := by rw [h, mul_one]

/-- Summing over (block, offset) is summing over the global index. -/
theorem sum_blockIx (g : Fin 12288 → EReal) : ∑ i : Fin 12, ∑ r : Fin 1024, g (blockIx i r) = ∑ R : Fin 12288, g R := by
  rw [← Fintype.sum_prod_type' (fun (i : Fin 12) (r : Fin 1024) => g (blockIx i r))]
  refine Fintype.sum_equiv (finProdFinEquiv : Fin 12 × Fin 1024 ≃ Fin 12288) _ _ fun p => ?_
  congr 1
  apply Fin.ext
  show 1024 * p.1.val + p.2.val = p.2.val + 1024 * p.1.val
  omega

/-- The kernel's blocked, scaled, replicated total is the reference's one total. -/
theorem blocked_total (f : Fin 12288 → Fin 12288 → EReal) :
    ∑ i : Fin 12, ∑ _a : Fin 8, ∑ _b : Fin 128, ∑ j : Fin 12,
        (∑ r : Fin 1024, ∑ c : Fin 1024, f (blockIx i r) (blockIx j c)) * ((1 / 1024 : ℝ) : EReal)
      = ∑ R : Fin 12288, ∑ C : Fin 12288, f R C := by
  have h1 : ∀ i : Fin 12, ∑ _a : Fin 8, ∑ _b : Fin 128, ∑ j : Fin 12,
        (∑ r : Fin 1024, ∑ c : Fin 1024, f (blockIx i r) (blockIx j c)) * ((1 / 1024 : ℝ) : EReal)
      = ∑ j : Fin 12, ∑ r : Fin 1024, ∑ c : Fin 1024, f (blockIx i r) (blockIx j c) := by
    intro i
    calc ∑ _a : Fin 8, ∑ _b : Fin 128, ∑ j : Fin 12,
          (∑ r : Fin 1024, ∑ c : Fin 1024, f (blockIx i r) (blockIx j c)) * ((1 / 1024 : ℝ) : EReal)
        = ∑ j : Fin 12, ∑ _a : Fin 8, ∑ _b : Fin 128,
          (∑ r : Fin 1024, ∑ c : Fin 1024, f (blockIx i r) (blockIx j c)) * ((1 / 1024 : ℝ) : EReal) := by
          have hin : ∀ _a : Fin 8, ∑ _b : Fin 128, ∑ j : Fin 12,
                (∑ r : Fin 1024, ∑ c : Fin 1024, f (blockIx i r) (blockIx j c)) * ((1 / 1024 : ℝ) : EReal)
              = ∑ j : Fin 12, ∑ _b : Fin 128,
                (∑ r : Fin 1024, ∑ c : Fin 1024, f (blockIx i r) (blockIx j c)) * ((1 / 1024 : ℝ) : EReal) :=
            fun _ => sum_comm
          rw [sum_congr rfl fun a _ => hin a]
          exact sum_comm
      _ = ∑ j : Fin 12, ∑ r : Fin 1024, ∑ c : Fin 1024, f (blockIx i r) (blockIx j c) :=
          sum_congr rfl fun j _ => sum_copies _
  calc ∑ i : Fin 12, ∑ _a : Fin 8, ∑ _b : Fin 128, ∑ j : Fin 12,
        (∑ r : Fin 1024, ∑ c : Fin 1024, f (blockIx i r) (blockIx j c)) * ((1 / 1024 : ℝ) : EReal)
      = ∑ i : Fin 12, ∑ j : Fin 12, ∑ r : Fin 1024, ∑ c : Fin 1024, f (blockIx i r) (blockIx j c) :=
        sum_congr rfl fun i _ => h1 i
    _ = ∑ i : Fin 12, ∑ r : Fin 1024, ∑ j : Fin 12, ∑ c : Fin 1024, f (blockIx i r) (blockIx j c) :=
        sum_congr rfl fun i _ => by exact sum_comm
    _ = ∑ i : Fin 12, ∑ r : Fin 1024, ∑ C : Fin 12288, f (blockIx i r) C :=
        sum_congr rfl fun i _ => sum_congr rfl fun r _ => sum_blockIx (fun C => f (blockIx i r) C)
    _ = ∑ R : Fin 12288, ∑ C : Fin 12288, f R C := sum_blockIx (fun R => ∑ C : Fin 12288, f R C)

end Cert.Glove

end
-- ==== Proof.PowerLaw.lean ====
/-
  The weight's power law on the extended reals.

  The kernel forms the weight's base as `t · √t` with `t = √y`, the reference as `y ^ (3/4)`.
  For `0 ≤ y` these are one extended real: at `y = ⊤` both are `⊤`, and for a real `r ≥ 0`
  `√r · √√r = r^(1/2) · r^(1/4) = r^(3/4)`. (For `y < 0` they differ — `√` answers `⊥` twice and
  `⊥ · ⊥ = ⊤`, while the real power of a negative base is a negative real — which is why the
  statement carries `0 ≤` every matrix entry.)
-/
import Idealize.ShloMosaic.PureOps.Ideal

noncomputable section

namespace Cert.Glove

open Idealize.ShloMosaic

/-- On the reals: `√r · √√r = r ^ (3/4)` for `0 ≤ r`. -/
theorem real_sqrt_mul_sqrt_sqrt (r : ℝ) (hr : 0 ≤ r) :
    Real.sqrt r * Real.sqrt (Real.sqrt r) = Real.rpow r (3 / 4) := by
  have h1 : Real.sqrt r = r ^ ((1 : ℝ) / 2) := Real.sqrt_eq_rpow r
  have h2 : Real.sqrt (Real.sqrt r) = r ^ ((1 : ℝ) / 4) := by
    rw [Real.sqrt_eq_rpow (Real.sqrt r), h1, ← Real.rpow_mul hr]
    norm_num
  rw [h2, h1]
  show r ^ ((1 : ℝ) / 2) * r ^ ((1 : ℝ) / 4) = r ^ ((3 : ℝ) / 4)
  rw [← Real.rpow_add' hr (by norm_num)]
  norm_num

theorem sqrt_top : Ideal.sqrt ⊤ = ⊤ := rfl

theorem sqrt_coe (r : ℝ) : Ideal.sqrt (r : EReal) = if r < 0 then ⊥ else ((Real.sqrt r : ℝ) : EReal) := rfl

theorem pow_top (y : EReal) : Ideal.pow ⊤ y = if 0 < y then ⊤ else if y = 0 then 1 else 0 := rfl

theorem pow_coe_coe (x y : ℝ) : Ideal.pow (x : EReal) (y : EReal) = ((Real.rpow x y : ℝ) : EReal) := rfl

/-- On the extended reals: `√y · √√y = y ^ (3/4)` for `0 ≤ y`. -/
theorem sqrt_mul_sqrt_sqrt (y : EReal) (hy : 0 ≤ y) :
    Ideal.sqrt y * Ideal.sqrt (Ideal.sqrt y) = Ideal.pow y ((3 / 4 : ℝ) : EReal) := by
  induction y using EReal.rec with
  | bot => exact absurd hy (by simp)
  | top =>
    have h34 : (0 : EReal) < ((3 / 4 : ℝ) : EReal) := by exact_mod_cast (by norm_num : (0 : ℝ) < 3 / 4)
    rw [sqrt_top, sqrt_top, pow_top, if_pos h34, EReal.top_mul_top]
  | coe r =>
    have hr : 0 ≤ r := by exact_mod_cast hy
    have hs : 0 ≤ Real.sqrt r := Real.sqrt_nonneg r
    rw [sqrt_coe, if_neg (not_lt.2 hr), sqrt_coe, if_neg (not_lt.2 hs), pow_coe_coe, ← EReal.coe_mul,
      real_sqrt_mul_sqrt_sqrt r hr]

end Cert.Glove

end
-- ==== Proof.Consts.lean ====
/-
  The float constants the two programs spell whose exact values the proof uses, as the extended
  reals their patterns denote: the reference's divisor `100`, its exponent `3/4`, and the kernel's
  block scale `1/1024 = 2⁻¹⁰` (one over the `8 · 128` entries of an output block). The zero and one
  of the clip are the same patterns on both sides and are never evaluated.
-/
import Idealize.ShloMosaic.PureOps.Ideal

noncomputable section

namespace Cert.Glove

open Idealize.ShloMosaic

/-- `100.0` denotes the real `100`. -/
theorem ofBits_100 : Ideal.ofBits .f32 0x42C80000#32 = ((100 : ℝ) : EReal) := by
  simp [Ideal.ofBits, Ideal.ieee, -EReal.coe_mul]; norm_num

/-- `0.75` denotes the real `3/4`. -/
theorem ofBits_three_quarters : Ideal.ofBits .f32 0x3F400000#32 = ((3 / 4 : ℝ) : EReal) := by
  simp [Ideal.ofBits, Ideal.ieee, -EReal.coe_mul]; norm_num

/-- `9.765625e-4` denotes the real `1/1024`. -/
theorem ofBits_inv_1024 : Ideal.ofBits .f32 0x3A800000#32 = ((1 / 1024 : ℝ) : EReal) := by
  simp [Ideal.ofBits, Ideal.ieee, -EReal.coe_mul]; norm_num

end Cert.Glove

end
-- ==== Proof.Spec.lean ====
/-
  The common specification: the loss as one sum over the matrix.

  For a row word `R` and a column word `C`

    diff R C   = ((∑ k, ctx[R,k] · tgt[C,k]) + tbias[C] + cbias[R]) − log1p m[R,C]
    weight x   = min 1 (max 0 ((x / 100) ^ (3/4)))
    entry R C  = weight m[R,C] · diff R C · diff R C

  and the loss is `0 + ∑ R, ∑ C, entry R C`. The reference computes exactly this. The kernel forms
  the weight's base as `t · √t`, `t = √(x · (1/100))`, which is `(x / 100) ^ (3/4)` when `0 ≤ x`
  (`weight_of_sqrt`), and arranges the sum by blocks (Summation.lean).
-/
import Idealize.ShloMosaic.PureOps.Ideal
import Idealize.ShloMosaic.Lib.ValueIdx
import proofs.«411057_j33251636805826_3_alg».proof.Proof.PowerLaw
import proofs.«411057_j33251636805826_3_alg».proof.Proof.Consts

noncomputable section

namespace Cert.Glove

open Idealize.ShloMosaic Idealize.ShloMosaic.ValueIdx

/-- The weight of a matrix entry, as the reference spells it (its literals kept as patterns). -/
def weight (x : EReal) : EReal :=
  min (Ideal.ofBits .f32 0x3F800000#32) (max (Ideal.ofBits .f32 0x00000000#32)
    (Ideal.pow (Ideal.div x (Ideal.ofBits .f32 0x42C80000#32)) (Ideal.ofBits .f32 0x3F400000#32)))

/-- The kernel's weight — the clip of `t · √t` with `t = √(x · (1/100))` — is the reference's, for `0 ≤ x`. -/
theorem weight_of_sqrt (x : EReal) (hx : 0 ≤ x) :
    min (Ideal.ofBits .f32 0x3F800000#32) (max (Ideal.ofBits .f32 0x00000000#32)
      (Ideal.sqrt (x * ((1 / 100 : ℝ) : EReal)) * Ideal.sqrt (Ideal.sqrt (x * ((1 / 100 : ℝ) : EReal))))) = weight x := by
  have h100 : (0 : EReal) ≤ ((1 / 100 : ℝ) : EReal) := by exact_mod_cast (by norm_num : (0 : ℝ) ≤ 1 / 100)
  unfold weight
  rw [ofBits_100, ofBits_three_quarters, Ideal.div_coe (by norm_num : (100 : ℝ) ≠ 0),
    sqrt_mul_sqrt_sqrt _ (mul_nonneg hx h100)]

variable (m : (⟨2, ![12288, 12288]⟩ : Shape).Idx → EReal)
  (tgt ctx : (⟨2, ![12288, 128]⟩ : Shape).Idx → EReal)
  (tbias cbias : (⟨2, ![12288, 1]⟩ : Shape).Idx → EReal)

/-- The model's residual at (row word `R`, column word `C`). -/
def diff (R C : Fin 12288) : EReal :=
  ((∑ k : Fin 128, ctx (ix2 R k) * tgt (ix2 C k)) + tbias (ix2 C (0 : Fin 1))) + cbias (ix2 R (0 : Fin 1))
    - Ideal.log1p (m (ix2 R C))

/-- One entry's contribution to the loss. -/
def entry (R C : Fin 12288) : EReal :=
  weight (m (ix2 R C)) * diff m tgt ctx tbias cbias R C * diff m tgt ctx tbias cbias R C

/-- The loss: the zero the sums start from, plus every entry's contribution. -/
def loss : EReal :=
  Ideal.ofBits .f32 0x00000000#32 + ∑ R : Fin 12288, ∑ C : Fin 12288, entry m tgt ctx tbias cbias R C

/-- A rank-3 index set is the product of its three coordinate ranges, so a sum over it is the triple sum. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2)
      invFun := fun p => ix3 p.1 p.2.1 p.2.2
      left_inv := fun i => (eq_ix3 i).symm
      right_inv := fun _ => rfl }
  rw [← Equiv.sum_comp e.symm f, Fintype.sum_prod_type]
  refine Finset.sum_congr rfl fun a _ => ?_
  rw [Fintype.sum_prod_type]
  rfl

end Cert.Glove

end
-- ==== Proof.KernelValue.lean ====
/-
  The kernel's result as one extended real.

  Point `12 i + j` of the grid is (row block `i`, column block `j`). Its input blocks are entries
  of the whole arrays: the matrix block at rows `1024 i + r`, columns `1024 j + c`; the context
  rows `1024 i + r`; rows `1024 j + c` of the resident target table; lanes `1024 j + c` of the
  target-bias row; rows `1024 i + r` of the context bias. The host operations before the region
  change nothing at the extended reals (two format changes and a reshape of a column into a row).
-/
import proofs.«411057_j33251636805826_3_alg».proof.Proof.Gen.KernelIdeal.Frame
import proofs.«411057_j33251636805826_3_alg».proof.Proof.KernelCases
import proofs.«411057_j33251636805826_3_alg».proof.Proof.KernelBlock
import proofs.«411057_j33251636805826_3_alg».proof.Proof.Accumulate
import proofs.«411057_j33251636805826_3_alg».proof.Proof.Summation
import proofs.«411057_j33251636805826_3_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.Glove

variable (m : (ℓ : Loc nD τ sig) → Buf (Elt Ideal) ℓ) (ρ : Dev nD → PrngReg)

/-! ## The argument arrays, and what the region finds -/

/-- The co-occurrence matrix. -/
abbrev arrM (c : Dev nD) : FVec Ideal S12288x12288 .f32 := m ((c : Thread nD τ).loc main_arg0)
/-- The target embeddings. -/
abbrev arrT (c : Dev nD) : FVec Ideal S12288x128 .f32 := m ((c : Thread nD τ).loc main_arg1)
/-- The context embeddings. -/
abbrev arrC (c : Dev nD) : FVec Ideal S12288x128 .f32 := m ((c : Thread nD τ).loc main_arg2)
/-- The target bias, a column. -/
abbrev arrTb (c : Dev nD) : FVec Ideal S12288x1 .f32 := m ((c : Thread nD τ).loc main_arg3)
/-- The context bias, a column. -/
abbrev arrCb (c : Dev nD) : FVec Ideal S12288x1 .f32 := m ((c : Thread nD τ).loc main_arg4)

theorem V_arg0 (c : Dev nD) : (V m c main_arg0 : FVec Ideal S12288x12288 .f32) = arrM m c := V_main_arg0 m c
theorem V_arg4 (c : Dev nD) : (V m c main_arg4 : FVec Ideal S12288x1 .f32) = arrCb m c := V_main_arg4 m c

/-- The context table the region reads is the context embeddings after a format change. -/
theorem V_v0 (c : Dev nD) : (V m c main_v0 : FVec Ideal S12288x128 .bf16) = truncf .bf16 (arrC m c) bitsLt_bf16_f32 := by
  dsimp only [V, V0]
  simp only [hostOps0, List.flatten_cons, List.flatten_nil, List.append_nil]
  after_results

/-- The target table the region reads is the target embeddings after a format change. -/
theorem V_v1 (c : Dev nD) : (V m c main_v1 : FVec Ideal S12288x128 .bf16) = truncf .bf16 (arrT m c) bitsLt_bf16_f32 := by
  dsimp only [V, V0]
  simp only [hostOps0, List.flatten_cons, List.flatten_nil, List.append_nil]
  after_results

/-- The target-bias row the region reads is the target-bias column reshaped. -/
theorem V_v2 (c : Dev nD) : (V m c main_v2 : FVec Ideal S1x12288 .f32) = shapeCast S1x12288 (arrTb m c) shapeCasts_S12288x1_S1x12288 := by
  dsimp only [V, V0]
  simp only [hostOps0, List.flatten_cons, List.flatten_nil, List.append_nil]
  after_results
  rfl

/-- The reshaped row at lane `C` is the column at row `C`. -/
theorem row_of_col (x : FVec Ideal S12288x1 .f32) (h : S12288x1.ShapeCasts S1x12288) (C : Fin 12288) :
    shapeCast S1x12288 x h (ix2 (0 : Fin 1) C) = x (ix2 C (0 : Fin 1)) :=
  shapeCast_apply x h _ _ (by
    rw [Shape.rowMajor_val_two, Shape.rowMajor_val_two]
    show C.val * 1 + 0 = 0 * 12288 + C.val
    omega)

/-! ## The grid's points and the windows' index maps -/

/-- Where each window's block sits at point `t`: row block `t / 12`, column block `t % 12`. -/
theorem idx_facts : ∀ t : Fin cfg0.N,
    win0_0.index t (0 : Fin 2) = t.val / 12 ∧ win0_0.index t (1 : Fin 2) = t.val % 12
    ∧ win0_1.index t (0 : Fin 2) = t.val / 12 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 12
    ∧ win0_4.index t (0 : Fin 2) = t.val / 12 ∧ win0_4.index t (1 : Fin 2) = 0
    ∧ win0_5.index t (0 : Fin 3) = t.val / 12 ∧ win0_5.index t (1 : Fin 3) = 0 ∧ win0_5.index t (2 : Fin 3) = 0
    ∧ ((grid0.coords t) 1).val = t.val % 12 :=
  (by decide +kernel : ∀ t : Fin grid0.N, _)

/-- Point (row block `i`, column block `j`). -/
def pt (i j : Fin 12) : Fin cfg0.N := ⟨12 * i.val + j.val, by
  have := i.isLt; have := j.isLt; rw [show cfg0.N = 144 from N_0]; omega⟩

theorem pt_val (i j : Fin 12) : (pt i j).val = 12 * i.val + j.val := rfl
theorem pt_div (i j : Fin 12) : (pt i j).val / 12 = i.val := by rw [pt_val]; have := j.isLt; omega
theorem pt_mod (i j : Fin 12) : (pt i j).val % 12 = j.val := by rw [pt_val]; have := j.isLt; omega

/-! ## The input blocks, by their literal types, as entries of the whole arrays -/

abbrev xb0 (c : Dev nD) (t : Fin cfg0.N) : FVec Ideal S1024x1024 .f32 := iblk m c 0 t
abbrev xb1 (c : Dev nD) (t : Fin cfg0.N) : FVec Ideal S1024x128 .bf16 := iblk m c 1 t
abbrev xb2 (c : Dev nD) (t : Fin cfg0.N) : FVec Ideal S12288x128 .bf16 := iblk m c 2 t
abbrev xb3 (c : Dev nD) (t : Fin cfg0.N) : FVec Ideal S1x1024 .f32 := iblk m c 3 t
abbrev xb4 (c : Dev nD) (t : Fin cfg0.N) : FVec Ideal S1024x1 .f32 := iblk m c 4 t

/-- The matrix block at (i, j): entry (r, c) is the matrix at (1024 i + r, 1024 j + c). -/
theorem xb0_apply (c : Dev nD) (i j : Fin 12) (r c' : Fin 1024) :
    xb0 m c (pt i j) (ix2 r c') = arrM m c (ix2 (blockIx i r) (blockIx j c')) := by
  have hi := idx_facts (pt i j)
  rw [pt_div, pt_mod] at hi
  unfold xb0 iblk
  rw [View.read_apply]
  show V m c main_arg0 _ = _
  rw [V_arg0]
  refine congrArg (arrM m c) (funext fun a => Fin.ext ?_)
  match a with
  | ⟨0, _⟩ => show win0_0.index (pt i j) 0 * 1024 + 1 * r.val = 1024 * i.val + r.val; rw [hi.1]; omega
  | ⟨1, _⟩ => show win0_0.index (pt i j) 1 * 1024 + 1 * c'.val = 1024 * j.val + c'.val; rw [hi.2.1]; omega

/-- The context rows of row block i: entry (r, k) is the context table at (1024 i + r, k). -/
theorem xb1_apply (c : Dev nD) (i j : Fin 12) (r : Fin 1024) (k : Fin 128) :
    xb1 m c (pt i j) (ix2 r k) = arrC m c (ix2 (blockIx i r) k) := by
  have hi := idx_facts (pt i j)
  rw [pt_div, pt_mod] at hi
  unfold xb1 iblk
  rw [View.read_apply]
  show V m c main_v0 _ = _
  rw [V_v0]
  show arrC m c _ = _
  refine congrArg (arrC m c) (funext fun a => Fin.ext ?_)
  match a with
  | ⟨0, _⟩ => show win0_1.index (pt i j) 0 * 1024 + 1 * r.val = 1024 * i.val + r.val; rw [hi.2.2.1]; omega
  | ⟨1, _⟩ => show win0_1.index (pt i j) 1 * 128 + 1 * k.val = k.val; rw [hi.2.2.2.1]; omega

/-- The resident target table, whole at every point. -/
theorem xb2_apply (c : Dev nD) (t : Fin cfg0.N) (R : Fin 12288) (k : Fin 128) :
    xb2 m c t (ix2 R k) = arrT m c (ix2 R k) := by
  have hi := idx_facts t
  unfold xb2 iblk
  rw [View.read_apply]
  show V m c main_v1 _ = _
  rw [V_v1]
  show arrT m c _ = _
  refine congrArg (arrT m c) (funext fun a => Fin.ext ?_)
  match a with
  | ⟨0, _⟩ => show win0_2.index t 0 * 12288 + 1 * R.val = R.val; rw [hi.2.2.2.2.1]; omega
  | ⟨1, _⟩ => show win0_2.index t 1 * 128 + 1 * k.val = k.val; rw [hi.2.2.2.2.2.1]; omega

/-- The rows the body slices out of the table at a point of column block `jj`: rows `1024 jj + c`. -/
theorem tableRows_apply (i : grid0.Coords) (x2 : FVec Ideal S12288x128 .bf16) (jj : Fin 12) (hj : (i 1).val = jj.val)
    (c' : Fin 1024) (k : Fin 128) :
    Cases.tableRows (F := Ideal) i x2 (ix2 c' k) = x2 (ix2 (blockIx jj c') k) := by
  show x2 ((Rect.unit (s := S12288x128) (k0_off1 i) S1024x128.size (k0_off1_inb i)).emb (ix2 c' k)) = _
  refine congrArg x2 (funext fun a => Fin.ext ?_)
  rw [Rect.emb_apply]
  match a with
  | ⟨0, _⟩ =>
    show k0_off1 i 0 + 1 * c'.val = 1024 * jj.val + c'.val
    rw [k0_off1_eq i]
    show 1024 * (i 1).val + 1 * c'.val = 1024 * jj.val + c'.val
    rw [hj]; omega
  | ⟨1, _⟩ =>
    show k0_off1 i 1 + 1 * k.val = k.val
    rw [k0_off1_eq i]
    show 0 + 1 * k.val = k.val
    omega

/-- The target-bias lanes of column block j: lane c is the bias of column word 1024 j + c. -/
theorem xb3_apply (c : Dev nD) (i j : Fin 12) (c' : Fin 1024) :
    xb3 m c (pt i j) (ix2 (0 : Fin 1) c') = arrTb m c (ix2 (blockIx j c') (0 : Fin 1)) := by
  have hi := idx_facts (pt i j)
  rw [pt_div, pt_mod] at hi
  unfold xb3 iblk
  rw [View.read_apply]
  show V m c main_v2 _ = _
  rw [V_v2]
  refine Eq.trans (congrArg (shapeCast S1x12288 (arrTb m c) shapeCasts_S12288x1_S1x12288) (funext fun a => Fin.ext ?_))
    (row_of_col (arrTb m c) shapeCasts_S12288x1_S1x12288 (blockIx j c'))
  match a with
  | ⟨0, _⟩ => show win0_3.index (pt i j) 0 * 1 + 1 * 0 = 0; rw [hi.2.2.2.2.2.2.1]
  | ⟨1, _⟩ => show win0_3.index (pt i j) 1 * 1024 + 1 * c'.val = 1024 * j.val + c'.val; rw [hi.2.2.2.2.2.2.2.1]; omega

/-- The context-bias rows of row block i: row r is the bias of row word 1024 i + r. -/
theorem xb4_apply (c : Dev nD) (i j : Fin 12) (r : Fin 1024) :
    xb4 m c (pt i j) (ix2 r (0 : Fin 1)) = arrCb m c (ix2 (blockIx i r) (0 : Fin 1)) := by
  have hi := idx_facts (pt i j)
  rw [pt_div, pt_mod] at hi
  unfold xb4 iblk
  rw [View.read_apply]
  show V m c main_arg4 _ = _
  rw [V_arg4]
  refine congrArg (arrCb m c) (funext fun a => Fin.ext ?_)
  match a with
  | ⟨0, _⟩ => show win0_4.index (pt i j) 0 * 1024 + 1 * r.val = 1024 * i.val + r.val; rw [hi.2.2.2.2.2.2.2.2.1]; omega
  | ⟨1, _⟩ => show win0_4.index (pt i j) 1 * 1 + 1 * 0 = 0; rw [hi.2.2.2.2.2.2.2.2.2.1]

/-! ## One point's total -/

/-- The block total the body forms at point `t`. -/
def ptTotal (c : Dev nD) (t : Fin cfg0.N) : EReal :=
  ∑ r : Fin 1024, ∑ c' : Fin 1024,
    Block.blockEntry (xb0 m c t) (xb1 m c t) (Cases.tableRows (F := Ideal) (grid0.coords t) (xb2 m c t)) (xb3 m c t) (xb4 m c t) r c'

theorem coords_col (i j : Fin 12) : ((grid0.coords (pt i j)) 1).val = j.val := by
  have := (idx_facts (pt i j)).2.2.2.2.2.2.2.2.2.2.2.2.2
  rw [pt_mod] at this; exact this

/-- The residual the body forms at (r, c) of block (i, j) is the specification's at (1024 i + r, 1024 j + c). -/
theorem blockDiff_eq (c : Dev nD) (i j : Fin 12) (r c' : Fin 1024) :
    Block.blockDiff (xb0 m c (pt i j)) (xb1 m c (pt i j))
        (Cases.tableRows (F := Ideal) (grid0.coords (pt i j)) (xb2 m c (pt i j))) (xb3 m c (pt i j)) (xb4 m c (pt i j)) r c'
      = diff (arrM m c) (arrT m c) (arrC m c) (arrTb m c) (arrCb m c) (blockIx i r) (blockIx j c') := by
  have hsum : ∑ k : Fin 128, xb1 m c (pt i j) (ix2 r k)
        * Cases.tableRows (F := Ideal) (grid0.coords (pt i j)) (xb2 m c (pt i j)) (ix2 c' k)
      = ∑ k : Fin 128, arrC m c (ix2 (blockIx i r) k) * arrT m c (ix2 (blockIx j c') k) :=
    Finset.sum_congr rfl fun k _ => by
      rw [xb1_apply, tableRows_apply (grid0.coords (pt i j)) (xb2 m c (pt i j)) j (coords_col i j) c' k, xb2_apply]
  unfold Block.blockDiff diff
  rw [hsum, xb0_apply, xb3_apply, xb4_apply]

/-- Where the matrix is nonnegative, the total at (i, j) is the specification's entries summed over the block. -/
theorem ptTotal_eq (c : Dev nD) (hnn : ∀ R C : Fin 12288, 0 ≤ arrM m c (ix2 R C)) (i j : Fin 12) :
    ptTotal m c (pt i j) = ∑ r : Fin 1024, ∑ c' : Fin 1024,
      entry (arrM m c) (arrT m c) (arrC m c) (arrTb m c) (arrCb m c) (blockIx i r) (blockIx j c') := by
  unfold ptTotal
  refine Finset.sum_congr rfl fun r _ => Finset.sum_congr rfl fun c' _ => ?_
  unfold Block.blockEntry Block.kweight entry
  rw [blockDiff_eq, xb0_apply, weight_of_sqrt _ (hnn _ _)]

end Cert.KernelIdeal.Loss

end
-- ==== Proof.KernelRun.lean ====
/-
  The kernel's run, read: its result is the loss.

  Every entry of the output block after point `n` is the same number `acc n`: the recursion of
  Accumulate.lean over the points' contributions `total(n) · 2⁻¹⁰`. Row block `i`'s output block is
  written back once, after its last column block (point `12 i + 11`), so entry (i, a, b) of the
  output array is `∑ j < 12, total(12 i + j) · 2⁻¹⁰`. The host's sum of the 12 × 8 × 128 output is
  the zero it starts from plus all of these, which Summation.lean re-arranges into the one sum
  over the matrix.
-/
import proofs.«411057_j33251636805826_3_alg».proof.Proof.KernelValue

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.Glove

variable (m : (ℓ : Loc nD τ sig) → Buf (Elt Ideal) ℓ) (ρ : Dev nD → PrngReg)

/-! ## One point's update, at an index -/

/-- The update adds the block total times `1/1024` to what the output block held, at every index. -/
theorem step_apply (i : grid0.Coords) (x0 : FVec Ideal S1024x1024 .f32) (x1 : FVec Ideal S1024x128 .bf16)
    (x2 : FVec Ideal S12288x128 .bf16) (x3 : FVec Ideal S1x1024 .f32) (x4 : FVec Ideal S1024x1 .f32)
    (xo : FVec Ideal S1x8x128 .f32) (u : Fin 1) (a : Fin 8) (b : Fin 128) :
    Cases.step (F := Ideal) i x0 x1 x2 x3 x4 xo (ix3 u a b)
      = xo (ix3 (0 : Fin 1) a b)
        + (∑ r : Fin 1024, ∑ c' : Fin 1024, Block.blockEntry x0 x1 (Cases.tableRows (F := Ideal) i x2) x3 x4 r c')
          * ((1 / 1024 : ℝ) : EReal) := by
  show k0_pay1 (F := Ideal) (k0_pay3 x0 x1 (Cases.tableRows (F := Ideal) i x2) x3 x4) xo (ix3 u a b) = _
  unfold k0_pay1
  refine (shapeCast_ab_1ab_apply _ shapeCasts_S8x128_S1x8x128 u a b).trans ?_
  show shapeCast S8x128 xo shapeCasts_S1x8x128_S8x128 (ix2 a b)
      + k0_pay3 (F := Ideal) x0 x1 (Cases.tableRows (F := Ideal) i x2) x3 x4 (ix2 a b) * Ideal.ofBits .f32 0x3A800000#32 = _
  rw [shapeCast_1ab_ab_apply, Block.blockTotal_apply, ofBits_inv_1024]

/-! ## The accumulation over the points -/

/-- Point `n`'s contribution to its output block: its block total times `1/1024`. -/
def contrib (c : Dev nD) (n : ℕ) : EReal :=
  if h : n < cfg0.N then ptTotal m c ⟨n, h⟩ * ((1 / 1024 : ℝ) : EReal) else 0

theorem contrib_eq (c : Dev nD) (t : Fin cfg0.N) : contrib m c t.val = ptTotal m c t * ((1 / 1024 : ℝ) : EReal) := by
  unfold contrib; rw [dif_pos t.isLt]

/-- At the first column block the output block ends at `0 +` the point's contribution. -/
theorem pointA (c : Dev nD) (t : Fin cfg0.N) (h0 : t.val % 12 = 0) (u : Fin 1) (a : Fin 8) (b : Fin 128) :
    outsAt0 m c t.val t.isLt (ix3 u a b) = 0 + contrib m c t.val := by
  rw [outsAt0_A m c t h0, Cases.out_A, step_apply, contrib_eq]
  show Ideal.ofBits .f32 0x00000000#32 + _ = _
  rw [Ideal.ofBits_zero_f32]
  rfl

/-- At any other column block it ends at what the point before left plus the point's contribution. -/
theorem pointB (c : Dev nD) (t : Fin cfg0.N) (h0 : ¬t.val % 12 = 0) (u : Fin 1) (a : Fin 8) (b : Fin 128) :
    outsAt0 m c t.val t.isLt (ix3 u a b)
      = outsAt0 m c (t.val - 1) (Nat.lt_of_le_of_lt (Nat.sub_le _ _) t.isLt) (ix3 (0 : Fin 1) a b) + contrib m c t.val := by
  rw [outsAt0_B m c t h0, Cases.out_B, step_apply, contrib_eq]
  rfl

/-- After point `n` every entry of the output block is the recursion's value. -/
theorem outsAt_eq (c : Dev nD) : ∀ (n : ℕ) (h : n < cfg0.N) (u : Fin 1) (a : Fin 8) (b : Fin 128),
    outsAt0 m c n h (ix3 u a b) = accN (contrib m c) n
  | 0, h, u, a, b => by
    rw [accN_zero]
    exact pointA m c ⟨0, h⟩ rfl u a b
  | n + 1, h, u, a, b => by
    rw [accN_succ]
    by_cases h0 : (n + 1) % 12 = 0
    · rw [if_pos h0]
      exact pointA m c ⟨n + 1, h⟩ h0 u a b
    · rw [if_neg h0, ← outsAt_eq c n (Nat.lt_of_succ_lt h) 0 a b]
      exact pointB m c ⟨n + 1, h⟩ h0 u a b

/-! ## The output array after the region -/

/-- Entry (i, a, b) of the output array: the contributions of row block `i`'s twelve points. -/
def outArr (c : Dev nD) : FVec Ideal S12x8x128 .f32 :=
  fun idx => ∑ k ∈ Finset.range 12, contrib m c (12 * (idx 0).val + k)

/-- The write-back after row block `i`'s last point writes those entries. -/
theorem flushed_eq (c : Dev nD) (t : Fin cfg0.N) (hf : (cfg0.win 5).flush t = true) :
    (dats m 0 c).flushed 5 t = ((cfg0.win 5).blk t).view.read (Elt Ideal) (outArr m c) := by
  have h11 : t.val % 12 = 11 := (flush0_5 t).mp hf
  have hi := idx_facts t
  funext y
  obtain ⟨u, a, b, rfl⟩ : ∃ (u : Fin 1) (a : Fin 8) (b : Fin 128), y = ix3 u a b := ⟨y 0, y 1, y 2, eq_ix3 y⟩
  rw [View.read_apply]
  show outsAt0 m c t.val t.isLt (ix3 u a b) = ∑ k ∈ Finset.range 12, contrib m c (12 * (win0_5.index t 0 * 1 + 1 * u.val) + k)
  rw [outsAt_eq, hi.2.2.2.2.2.2.2.2.2.2.1]
  have hu : u.val = 0 := by omega
  have ht : t.val = 12 * (t.val / 12) + 11 := by omega
  rw [hu, show t.val / 12 * 1 + 1 * 0 = t.val / 12 by omega]
  conv_lhs => rw [ht]
  exact accN_eq _ _ 11 (by norm_num)

/-- Every entry of the output array lies in the block some write-back writes. -/
theorem out_cover (i : ((cfg0.win 5).arr.view.loc ((0 : Dev nD).tc : Thread nD τ)).2.ty.Idx) :
    ∃ t : Fin cfg0.N, (cfg0.win 5).flush t = true ∧ i ∈ ((cfg0.win 5).blk t).view.set := by
  have h0 : (i 0 : Nat) < 12 := (i 0).isLt
  have h1 : (i 1 : Nat) < 8 := (i 1).isLt
  have h2 : (i 2 : Nat) < 128 := (i 2).isLt
  let t : Fin cfg0.N := pt ⟨(i 0).val, h0⟩ ⟨11, by norm_num⟩
  have hi := idx_facts t
  have hd : t.val / 12 = (i 0).val := pt_div _ _
  refine ⟨t, (flush0_5 t).mpr (pt_mod _ _), ?_⟩
  show i ∈ ((View.whole main_v3).slice (win0_5.rect t)).set
  rw [View.set_slice_whole, Rect.mem_set_unit]
  intro a
  match a with
  | ⟨0, _⟩ =>
    show win0_5.index t 0 * 1 ≤ (i 0 : Nat) ∧ (i 0 : Nat) < win0_5.index t 0 * 1 + 1
    rw [hi.2.2.2.2.2.2.2.2.2.2.1, hd]; omega
  | ⟨1, _⟩ =>
    show win0_5.index t 1 * 8 ≤ (i 1 : Nat) ∧ (i 1 : Nat) < win0_5.index t 1 * 8 + 8
    rw [hi.2.2.2.2.2.2.2.2.2.2.2.1]; omega
  | ⟨2, _⟩ =>
    show win0_5.index t 2 * 128 ≤ (i 2 : Nat) ∧ (i 2 : Nat) < win0_5.index t 2 * 128 + 128
    rw [hi.2.2.2.2.2.2.2.2.2.2.2.2.1]; omega

/-- So the output array ends holding `outArr`. -/
theorem final_out (c : Dev nD) : (dats m 0 c).arrAt 5 cfg0.N = outArr m c :=
  (dats m 0 c).arrAt_eq_of_cover 5 (outArr m c) (flushed_eq m c) fun i => out_cover i

/-! ## The host's sum after the region -/

/-- The program's result: the host's sum, from zero, of the output array. -/
theorem tail_eq (c : Dev nD) :
    Pipeline.afterTail₀ cfgs (dats m) 0 (V0 m) [hostOps1] c main_v4
      = Host.reduceAdd (outArr m c) (constant (F := Ideal) S_ .f32 0x00000000#32) reducesTo_S12x8x128_S_d0_1_2 h_S_ := by
  unfold Pipeline.afterTail₀
  show StableHlo.after hostOps1 _ (Proc.devRef .tc main_v4) = _
  after_results
  refine congrArg (fun x => Host.reduceAdd x (constant (F := Ideal) S_ .f32 0x00000000#32) reducesTo_S12x8x128_S_d0_1_2 h_S_) ?_
  exact (Pipeline.withArrays_arr spec0 launch0.win.arr_inj c _ _ 5).trans (final_out m c)

/-- Where the matrix is nonnegative, that sum is the loss. -/
theorem sum_out_eq (c : Dev nD) (hnn : ∀ R C : Fin 12288, 0 ≤ arrM m c (ix2 R C)) (i : S_.Idx) :
    Host.reduceAdd (outArr m c) (constant (F := Ideal) S_ .f32 0x00000000#32) reducesTo_S12x8x128_S_d0_1_2 h_S_ i
      = loss (arrM m c) (arrT m c) (arrC m c) (arrTb m c) (arrCb m c) := by
  simp only [Host.reduceAdd, Ideal.hostReduceAdd_def]
  refine (Ideal.hostReduceAdd_total reducesTo_S12x8x128_S_d0_1_2 (fun b => b.elim0) (outArr m c) _ i).trans ?_
  unfold loss
  refine congrArg (Ideal.ofBits .f32 0x00000000#32 + ·) ?_
  rw [sum_idx3, ← blocked_total (entry (arrM m c) (arrT m c) (arrC m c) (arrTb m c) (arrCb m c))]
  refine Finset.sum_congr rfl fun i _ => Finset.sum_congr rfl fun a _ => Finset.sum_congr rfl fun b _ => ?_
  show ∑ k ∈ Finset.range 12, contrib m c (12 * i.val + k) = _
  rw [Finset.sum_range]
  refine Finset.sum_congr rfl fun j _ => ?_
  have h := contrib_eq m c (pt i j)
  rw [pt_val] at h
  rw [h, ptTotal_eq m c hnn i j]

/-! ## The run -/

/-- Every weakly fair execution of the idealized kernel from a memory whose matrix is nonnegative
    terminates with its result at the loss of the argument arrays, the arguments unchanged. -/
theorem run (hnn : ∀ (c : Dev nD) (R C : Fin 12288), 0 ≤ arrM m c (ix2 R C)) :
    θ_run defs (onTc (τ := τ) (main (F := Ideal))) ⟨m, fun _ => 0, ρ⟩ (fun r => ∀ c : Dev nD,
      r.2.mem ((c.tc : Thread nD τ).loc main_v4) = (fun _ => loss (arrM m c) (arrT m c) (arrC m c) (arrTb m c) (arrCb m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v4 (Pipeline.mem_restRefs_of main_v4 (by decide) (by decide))).trans (tail_eq m c)).trans
        (funext fun i => sum_out_eq m c (hnn c) i),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c)))⟩)
    (run_main m ρ)

end Cert.KernelIdeal.Loss

end
-- ==== Proof.RefValue.lean ====
/-
  The reference's result read as one extended real: the initial zero plus the sum, over every
  entry of the 12288 × 12288 matrix, of `weight · diff · diff` — the specification's `loss`.

  The reference transposes the target table and contracts it with the context table, so its
  product at (R, C) is `∑ k, ctx[R,k] · tgt[C,k]`; it transposes the target-bias column into a row
  and broadcasts it down the rows, and broadcasts the context-bias column along the columns; the
  rest is entrywise. Each operation is read at an index by its generated lemma.
-/
import proofs.«411057_j33251636805826_3_alg».proof.Proof.Gen.ReferenceIdeal.Read
import proofs.«411057_j33251636805826_3_alg».proof.Proof.Spec

noncomputable section

open Idealize.ShloMosaic Idealize.ShloMosaic.ValueIdx

namespace Cert.Glove.Ref

open Cert.ReferenceIdeal Cert.ReferenceIdeal.Gen Cert.ReferenceIdeal.Read Cert.Glove

variable (x0 : FVec Ideal S12288x12288 .f32) (x1 x2 : FVec Ideal S12288x128 .f32) (x3 x4 : FVec Ideal S12288x1 .f32)

/-- The reference's product array at (R, C) is the specification's entry. -/
theorem product_apply (R C : Fin 12288) :
    val_main_v15 (F := Ideal) x0 x1 x2 x3 x4 (ix2 R C) = entry x0 x1 x2 x3 x4 R C := by
  have e1 : ∀ k : Fin 128, lidx_main_v1 (ix2 R C) k = ix2 R k := fun k => funext fun a => Fin.ext (by
    match a with
    | ⟨0, _⟩ => rfl
    | ⟨1, _⟩ => rfl)
  have e2 : ∀ k : Fin 128, idx_main_v0 (ridx_main_v1 (ix2 R C) k) = ix2 C k := fun k => funext fun a => Fin.ext (by
    match a with
    | ⟨0, _⟩ => rfl
    | ⟨1, _⟩ => rfl)
  have e3 : idx_main_v2 (idx_main_v3 (ix2 R C)) = ix2 C (0 : Fin 1) := funext fun a => Fin.ext (by
    match a with
    | ⟨0, _⟩ => rfl
    | ⟨1, _⟩ => rfl)
  have e4 : idx_main_v5 (ix2 R C) = ix2 R (0 : Fin 1) := funext fun a => Fin.ext (by
    match a with
    | ⟨0, _⟩ => rfl
    | ⟨1, _⟩ => rfl)
  rw [val_main_v15_apply, val_main_v14_apply, val_main_v13_apply, val_main_call0_v4_apply, val_main_call0_v3_apply,
    val_main_cst_2_apply, val_main_call0_v2_apply, val_main_call0_v1_apply, val_main_call0_v0_apply, val_main_cst_1_apply,
    val_main_v12_apply, val_main_v10_apply, val_main_v9_apply, val_main_cst_apply, val_main_v11_apply, val_main_cst_0_apply,
    val_main_v8_apply, val_main_v6_apply, val_main_v4_apply, val_main_v1_apply, val_main_v3_apply, val_main_v2_apply,
    val_main_v5_apply, val_main_v7_apply]
  simp only [val_main_v0_apply, e1, e2, e3, e4]
  rfl

/-- The reference's result is the loss. -/
theorem result_eq (i : S_.Idx) : val_main_v16 (F := Ideal) x0 x1 x2 x3 x4 i = loss x0 x1 x2 x3 x4 := by
  rw [val_main_v16_apply, sum_idx2]
  unfold loss
  refine congrArg (Ideal.ofBits .f32 0x00000000#32 + ·) ?_
  exact Finset.sum_congr rfl fun R _ => Finset.sum_congr rfl fun C _ => product_apply x0 x1 x2 x3 x4 R C

end Cert.Glove.Ref

end
-- ==== Proof.PreNonneg.lean ====
/-
  What the proof uses of the precondition: every entry of the co-occurrence matrix is `≥ 0`.

  The precondition is a conjunction of six `all`-reductions; the last says `m ≥ 0` entrywise. A
  conjunction that is `1` has both conjuncts `1`; an `and`-reduction into one result that is `1`
  had a `1` at every index; and the ordered comparison `m[i] ≥ 0` at the extended reals is `0 ≤ m[i]`.
-/
import proofs.«411057_j33251636805826_3_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic

namespace Cert.Glove.Pre

open Cert.Pre_finite_inputs

variable [Cert.Pre_finite_inputs.Facts]

instance : Subsingleton S_.Idx := ⟨fun a b => funext fun d => d.elim0⟩

/-- Under the precondition every matrix entry is nonnegative. -/
theorem nonneg_of_pre (a0 : FVec Ideal S12288x12288 .f32) (a1 a2 : FVec Ideal S12288x128 .f32) (a3 a4 : FVec Ideal S12288x1 .f32)
    (h : fn (F := Ideal) a0 a1 a2 a3 a4 = fun _ => 1#1) (i : S12288x12288.Idx) : 0 ≤ a0 i := by
  have h0 := congrFun h ValueIdx.ix0
  dsimp only [fn, fn_part1] at h0
  have h1 := (IntOp.andi_eq_one.mp h0).2
  have h2 := Host.reduce_andi_all _ _ _ _ _ h1 i
  have h3 : Ideal.cmp .oge (a0 i) (Ideal.ofBits .f32 0x00000000#32) = 1#1 := h2
  rw [Ideal.ofBits_zero_f32] at h3
  have h4 : BitVec.ofBool (decide ((0 : EReal) ≤ a0 i)) = 1#1 := h3
  by_contra hneg
  rw [decide_eq_false hneg] at h4
  exact absurd h4 (by decide)

end Cert.Glove.Pre

end
-- ==== Proof.lean ====
/-
  The GloVe loss: `∑_{R,C} w(m[R,C]) · d[R,C]²` with
  `d[R,C] = ctx[R]·tgt[C] + tbias[C] + cbias[R] − log1p m[R,C]` and `w(x) = clip((x/100)^{3/4}, 0, 1)`.

  The reference computes the sum whole. The kernel tiles the 12288 × 12288 matrix into 12 × 12
  blocks of 1024 × 1024; for each block it forms the block's total, scales it by `2⁻¹⁰`, and adds
  it into all `8 · 128 = 1024` entries of the row block's output tile (reset at the row block's
  first column block); the host then sums the 12 × 8 × 128 output. Over the extended reals these
  are one number:

  * the weights agree where `0 ≤ m[R,C]`: the kernel's `t · √t`, `t = √(x · (1/100))`, is
    `(x/100)^{3/4}` there (PowerLaw.lean; the named `1/100` meets the reference's `/ 100`), and the
    precondition says `0 ≤ m` entrywise (PreNonneg.lean) — for `x < 0` the two differ, the square
    root answering `⊥` where the real power is a negative real;
  * the matrix products agree entry by entry, each the inner product of a context row and a
    target row, the format changes being the identity;
  * the sums agree by re-arrangement alone: the 1024 copies of `s · 2⁻¹⁰` total `s` for every
    extended real `s`, and addition there is commutative and associative (Summation.lean), so no
    finiteness of the inputs is used.

  The kernel's run is read off its generated frame (KernelCases.lean: what a point leaves;
  KernelBlock.lean: the block total at an index; KernelValue.lean: the blocks as entries of the
  arrays; KernelRun.lean: the accumulation, the output array, the host's sum). The reference's
  run is its generated run read one operation at a time (RefValue.lean).
-/
import proofs.«411057_j33251636805826_3_alg».proof.Defs
import proofs.«411057_j33251636805826_3_alg».proof.Proof.Gen.Kernel
import proofs.«411057_j33251636805826_3_alg».proof.Proof.Gen.Kernel.Skeleton
import proofs.«411057_j33251636805826_3_alg».proof.Proof.Gen.Kernel.Launch
import proofs.«411057_j33251636805826_3_alg».proof.Proof.Gen.Kernel.Points
import proofs.«411057_j33251636805826_3_alg».proof.Proof.Gen.Kernel.Frame
import proofs.«411057_j33251636805826_3_alg».proof.Proof.Gen.KernelIdeal
import proofs.«411057_j33251636805826_3_alg».proof.Proof.Gen.KernelIdeal.Skeleton
import proofs.«411057_j33251636805826_3_alg».proof.Proof.Gen.KernelIdeal.Launch
import proofs.«411057_j33251636805826_3_alg».proof.Proof.Gen.KernelIdeal.Points
import proofs.«411057_j33251636805826_3_alg».proof.Proof.Gen.KernelIdeal.Frame
import proofs.«411057_j33251636805826_3_alg».proof.Proof.Gen.ReferenceIdeal
import proofs.«411057_j33251636805826_3_alg».proof.Proof.Gen.ReferenceIdeal.Run
import proofs.«411057_j33251636805826_3_alg».proof.Proof.Gen.ReferenceIdeal.Read
import proofs.«411057_j33251636805826_3_alg».proof.Proof.Gen.Pre_finite_inputs
import proofs.«411057_j33251636805826_3_alg».proof.Proof.KernelRun
import proofs.«411057_j33251636805826_3_alg».proof.Proof.RefValue
import proofs.«411057_j33251636805826_3_alg».proof.Proof.PreNonneg
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal `0.01f` is named, and denotes `1/100`. -/
theorem preserves : Cert.preserves_Kernel_KernelIdeal :=
  IdealRules.named_const.statement Cert.KernelIdeal.κ "inv_100" .f32 0x3C23D70A#32 ((1 / 100 : ℝ) : EReal) rfl

/-- Both programs end at the loss of the argument arrays. -/
theorem algebraic : Cert.algebraic_KernelIdeal_ReferenceIdeal := by
  intro m ρ m' ρ' hpre hagree
  have hnn : ∀ (c : Dev Cert.KernelIdeal.nD) (R C : Fin 12288), 0 ≤ Cert.KernelIdeal.Loss.arrM m c (ix2 R C) :=
    fun c R C => Cert.Glove.Pre.nonneg_of_pre _ _ _ _ _ (hpre c) (ix2 R C)
  refine ⟨fun c => fun _ => Cert.Glove.loss (Cert.KernelIdeal.Loss.arrM m c) (Cert.KernelIdeal.Loss.arrT m c)
      (Cert.KernelIdeal.Loss.arrC m c) (Cert.KernelIdeal.Loss.arrTb m c) (Cert.KernelIdeal.Loss.arrCb m c),
    Cert.KernelIdeal.Loss.run m ρ hnn, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2.1,
    (hagree c).2.2.2.2]
  exact funext fun i => Cert.Glove.Ref.result_eq _ _ _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
